-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8x16 : Shape := ⟨3, ![100000, 8, 16]⟩
abbrev S600000x8x16 : Shape := ⟨3, ![600000, 8, 16]⟩
abbrev S600000 : Shape := ⟨1, ![600000]⟩
abbrev S20000 : Shape := ⟨1, ![20000]⟩
abbrev S_ : Shape := ⟨0, ![]⟩

class Facts : Prop where
  bcast_S_S100000x8x16 : S_.BroadcastsInDim S100000x8x16 (![] : Fin 0 → Fin S100000x8x16.rank)
  reducesTo_S100000x8x16_S_d0_1_2 : S100000x8x16.ReducesTo [0, 1, 2] S_
  h_S_ : 0 < S_.numel
  bcast_S_S600000x8x16 : S_.BroadcastsInDim S600000x8x16 (![] : Fin 0 → Fin S600000x8x16.rank)
  reducesTo_S600000x8x16_S_d0_1_2 : S600000x8x16.ReducesTo [0, 1, 2] S_

variable [Facts]

def fn {F : FTy → Type} [FloatOps F] (main_arg0 : FVec F S100000x8x16 .f32) (main_arg1 : FVec F S600000x8x16 .f32) (main_arg2 : IVec S600000 32) (main_arg3 : IVec S20000 32) : IVec S_ 1 :=
  let main_v0 : FVec F S100000x8x16 .f32 := Host.absf main_arg0
  let main_cst : FVec F S_ .f32 := constant S_ .f32 0x7F800000#32
  let main_v1 : FVec F S100000x8x16 .f32 := broadcastInDim S100000x8x16 ![] bcast_S_S100000x8x16 main_cst
  let main_v2 : IVec S100000x8x16 1 := cmpf .olt main_v0 main_v1
  let main_c : IVec S_ 1 := constantI S_ 1 1#1
  let main_v3 : IVec S_ 1 := (fun x v => Host.reduce IntOp.andi x v reducesTo_S100000x8x16_S_d0_1_2 h_S_) main_v2 main_c
  let main_v4 : FVec F S600000x8x16 .f32 := Host.absf main_arg1
  let main_cst_0 : FVec F S_ .f32 := constant S_ .f32 0x7F800000#32
  let main_v5 : FVec F S600000x8x16 .f32 := broadcastInDim S600000x8x16 ![] bcast_S_S600000x8x16 main_cst_0
  let main_v6 : IVec S600000x8x16 1 := cmpf .olt main_v4 main_v5
  let main_c_1 : IVec S_ 1 := constantI S_ 1 1#1
  let main_v7 : IVec S_ 1 := (fun x v => Host.reduce IntOp.andi x v reducesTo_S600000x8x16_S_d0_1_2 h_S_) main_v6 main_c_1
  let main_v8 : IVec S_ 1 := andi main_v3 main_v7
  main_v8
-- ==== Kernel.lean ====
abbrev S100000x8x16 : Shape := ⟨3, ![100000, 8, 16]⟩
abbrev S600000x8x16 : Shape := ⟨3, ![600000, 8, 16]⟩
abbrev S600000 : Shape := ⟨1, ![600000]⟩
abbrev S20000 : Shape := ⟨1, ![20000]⟩
abbrev S_ : Shape := ⟨0, ![]⟩
abbrev S600000x1 : Shape := ⟨2, ![600000, 1]⟩
abbrev S600000x8 : Shape := ⟨2, ![600000, 8]⟩
abbrev S1200x8x16 : Shape := ⟨3, ![1200, 8, 16]⟩
abbrev S1200x8 : Shape := ⟨2, ![1200, 8]⟩
abbrev S1200 : Shape := ⟨1, ![1200]⟩
abbrev S1200x1 : Shape := ⟨2, ![1200, 1]⟩
abbrev S1200x8x1 : Shape := ⟨3, ![1200, 8, 1]⟩
abbrev S20000x1 : Shape := ⟨2, ![20000, 1]⟩
abbrev S20000x8x16 : Shape := ⟨3, ![20000, 8, 16]⟩
abbrev S2000x8x16 : Shape := ⟨3, ![2000, 8, 16]⟩
abbrev S2000x16 : Shape := ⟨2, ![2000, 16]⟩
abbrev S2000x1x16 : Shape := ⟨3, ![2000, 1, 16]⟩
abbrev S600000x8x1 : Shape := ⟨3, ![600000, 8, 1]⟩

abbrev nBuf : Space → Nat
  | .hbm => 30
  | .vmem => 12
  | .smem => 0
  | _ => 0

abbrev bufTy : (tb : Table) → Fin (tcTables nBuf tb) → BufTy
  | .hbm, ⟨0, _⟩ => ⟨S100000x8x16, .f32⟩
  | .hbm, ⟨1, _⟩ => ⟨S600000x8x16, .f32⟩
  | .hbm, ⟨2, _⟩ => ⟨S600000, .i32⟩
  | .hbm, ⟨3, _⟩ => ⟨S20000, .i32⟩
  | .hbm, ⟨4, _⟩ => ⟨S_, .i32⟩
  | .hbm, ⟨5, _⟩ => ⟨S600000, .i32⟩
  | .hbm, ⟨6, _⟩ => ⟨S600000, .i1⟩
  | .hbm, ⟨7, _⟩ => ⟨S_, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000x1, .i32⟩
  | .hbm, ⟨12, _⟩ => ⟨S600000x8x16, .f32⟩
  | .hbm, ⟨13, _⟩ => ⟨S600000x8x16, .f32⟩
  | .hbm, ⟨14, _⟩ => ⟨S600000x8, .f32⟩
  | .hbm, ⟨15, _⟩ => ⟨S_, .f32⟩
  | .hbm, ⟨16, _⟩ => ⟨S100000x8x16, .f32⟩
  | .hbm, ⟨17, _⟩ => ⟨S600000x1, .i32⟩
  | .hbm, ⟨18, _⟩ => ⟨S100000x8x16, .f32⟩
  | .hbm, ⟨19, _⟩ => ⟨S_, .i32⟩
  | .hbm, ⟨20, _⟩ => ⟨S20000, .i32⟩
  | .hbm, ⟨21, _⟩ => ⟨S20000, .i1⟩
  | .hbm, ⟨22, _⟩ => ⟨S_, .i32⟩
  | .hbm, ⟨23, _⟩ => ⟨S20000, .i32⟩
  | .hbm, ⟨24, _⟩ => ⟨S20000, .i32⟩
  | .hbm, ⟨25, _⟩ => ⟨S20000, .i32⟩
  | .hbm, ⟨26, _⟩ => ⟨S20000x1, .i32⟩
  | .hbm, ⟨27, _⟩ => ⟨S20000x8x16, .f32⟩
  | .hbm, ⟨28, _⟩ => ⟨S20000x8x16, .f32⟩
  | .hbm, ⟨29, _⟩ => ⟨S600000x8x1, .f32⟩
  | .local _ .vmem, ⟨0, _⟩ => ⟨S1200x8x16, .f32⟩
  | .local _ .vmem, ⟨1, _⟩ => ⟨S1200x8x16, .f32⟩
  | .local _ .vmem, ⟨2, _⟩ => ⟨S1200x8x16, .f32⟩
  | .local _ .vmem, ⟨3, _⟩ => ⟨S1200x8x16, .f32⟩
  | .local _ .vmem, ⟨4, _⟩ => ⟨S1200x8x16, .f32⟩
  | .local _ .vmem, ⟨5, _⟩ => ⟨S1200x8x16, .f32⟩
  | .local _ .vmem, ⟨6, _⟩ => ⟨S1200x8, .f32⟩
  | .local _ .vmem, ⟨7, _⟩ => ⟨S1200x8, .f32⟩
  | .local _ .vmem, ⟨8, _⟩ => ⟨S2000x8x16, .f32⟩
  | .local _ .vmem, ⟨9, _⟩ => ⟨S2000x8x16, .f32⟩
  | .local _ .vmem, ⟨10, _⟩ => ⟨S2000x8x16, .f32⟩
  | .local _ .vmem, ⟨11, _⟩ => ⟨S2000x8x16, .f32⟩
  | _, _ => ⟨S100000x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1200x8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1200x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1200x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x8x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x8x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  inb_S1200x8x16_S1200x8x16_0_0_0 : ∀ a, (![0, 0, 0] : Fin 3 → Nat) a + S1200x8x16.size a ≤ S1200x8x16.size a
  h_S1200x8x16 : 0 < S1200x8x16.numel
  shapeCasts_S1200x8x16_S1200x8x16 : S1200x8x16.ShapeCasts S1200x8x16
  reduces_S1200x8x16_S1200x8 : S1200x8x16.Reduces [2] S1200x8
  reduces_S1200x8_S1200 : S1200x8.Reduces [1] S1200
  shapeCasts_S1200_S1200x1 : S1200.ShapeCasts S1200x1
  broadcasts_S1200x1_S1200x8 : S1200x1.Broadcasts S1200x8
  inb_S1200x8_S1200x8_0_0 : ∀ a, (![0, 0] : Fin 2 → Nat) a + S1200x8.size a ≤ S1200x8.size a
  h_S1200x8 : 0 < S1200x8.numel
  shapeCasts_S1200x8_S1200x8x1 : S1200x8.ShapeCasts S1200x8x1
  broadcasts_S1200x8x1_S1200x8x16 : S1200x8x1.Broadcasts S1200x8x16
  bcast_S_S100000x8x16 : S_.BroadcastsInDim S100000x8x16 (![] : Fin 0 → Fin S100000x8x16.rank)
  bcast_S_S20000 : S_.BroadcastsInDim S20000 (![] : Fin 0 → Fin S20000.rank)
  bcast_S20000_S20000x1_0 : S20000.BroadcastsInDim S20000x1 (![0] : Fin 1 → Fin S20000x1.rank)
  inb_S2000x8x16_S2000x8x16_0_0_0 : ∀ a, (![0, 0, 0] : Fin 3 → Nat) a + S2000x8x16.size a ≤ S2000x8x16.size a
  h_S2000x8x16 : 0 < S2000x8x16.numel
  shapeCasts_S2000x8x16_S2000x8x16 : S2000x8x16.ShapeCasts S2000x8x16
  reduces_S2000x8x16_S2000x16 : S2000x8x16.Reduces [1] S2000x16
  shapeCasts_S2000x16_S2000x1x16 : S2000x16.ShapeCasts S2000x1x16
  broadcasts_S2000x1x16_S2000x8x16 : S2000x1x16.Broadcasts S2000x8x16
  bcast_S600000x8_S600000x8x1_0_1 : S600000x8.BroadcastsInDim S600000x8x1 (![0, 1] : Fin 2 → Fin S600000x8x1.rank)
  gather_S100000x8x16_S600000x1_S600000x8x16_12_0_n_n_0_1_1816_wf : GatherDims.WF S100000x8x16 S600000x1 S600000x8x16 [1, 2] [0] [] [0] [] 1 ![1, 8, 16]
  scatter_S100000x8x16_S600000x1_S600000x8x16_12_0_0_1_wf : ScatterDims.WF S100000x8x16 S600000x1 S600000x8x16 [1, 2] [0] [0] 1
  gather_S100000x8x16_S20000x1_S20000x8x16_12_0_n_n_0_1_1816_wf : GatherDims.WF S100000x8x16 S20000x1 S20000x8x16 [1, 2] [0] [] [0] [] 1 ![1, 8, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x8x16.size a ≤ S600000x8x16.size a
  hwx0_0 : ∀ i : grid0.Coords, EltTy.bits .f32 = 32 ∨ (Rect.block (s := S600000x8x16) S1200x8x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1200x8x16.size a ≤ S600000x8x16.size a
  hwx0_1 : ∀ i : grid0.Coords, EltTy.bits .f32 = 32 ∨ (Rect.block (s := S600000x8x16) S1200x8x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x8x16.size a ≤ S600000x8x16.size a
  hwx0_2 : ∀ i : grid0.Coords, EltTy.bits .f32 = 32 ∨ (Rect.block (s := S600000x8x16) S1200x8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1200x8.size a ≤ S600000x8.size a
  hwx0_3 : ∀ i : grid0.Coords, EltTy.bits .f32 = 32 ∨ (Rect.block (s := S600000x8) S1200x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x8x16.size a ≤ S20000x8x16.size a
  hwx1_0 : ∀ i : grid1.Coords, EltTy.bits .f32 = 32 ∨ (Rect.block (s := S20000x8x16) S2000x8x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x8x16.size a ≤ S20000x8x16.size a
  hwx1_1 : ∀ i : grid1.Coords, EltTy.bits .f32 = 32 ∨ (Rect.block (s := S20000x8x16) S2000x8x16.size (cc1_transform_1 i) (hinb1_1 i)).WholeWords (EltTy.packing .f32)

variable [Facts₀]

def gather_S100000x8x16_S600000x1_S600000x8x16_12_0_n_n_0_1_1816 : GatherDims S100000x8x16 S600000x1 S600000x8x16 where
  offsetDims := [1, 2]
  collapsedSliceDims := [0]
  operandBatchingDims := []
  startIndicesBatchingDims := []
  startIndexMap := [0]
  indexVectorDim := 1
  sliceSizes := ![1, 8, 16]
  wf := gather_S100000x8x16_S600000x1_S600000x8x16_12_0_n_n_0_1_1816_wf
def scatter_S100000x8x16_S600000x1_S600000x8x16_12_0_0_1 : ScatterDims S100000x8x16 S600000x1 S600000x8x16 where
  updateWindowDims := [1, 2]
  insertedWindowDims := [0]
  scatterDimsToOperandDims := [0]
  indexVectorDim := 1
  wf := scatter_S100000x8x16_S600000x1_S600000x8x16_12_0_0_1_wf
def gather_S100000x8x16_S20000x1_S20000x8x16_12_0_n_n_0_1_1816 : GatherDims S100000x8x16 S20000x1 S20000x8x16 where
  offsetDims := [1, 2]
  collapsedSliceDims := [0]
  operandBatchingDims := []
  startIndicesBatchingDims := []
  startIndexMap := [0]
  indexVectorDim := 1
  sliceSizes := ![1, 8, 16]
  wf := gather_S100000x8x16_S20000x1_S20000x8x16_12_0_n_n_0_1_1816_wf

abbrev win0_0 : Pipeline.Window sig grid0 :=
  Pipeline.Window.ofSpec (Memref.whole main_arg1) S1200x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1200x8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1200x8x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1200x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x8x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x8x16.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x8x16 : Shape := ⟨3, ![100000, 8, 16]⟩
abbrev S600000x8x16 : Shape := ⟨3, ![600000, 8, 16]⟩
abbrev S600000 : Shape := ⟨1, ![600000]⟩
abbrev S20000 : Shape := ⟨1, ![20000]⟩
abbrev S_ : Shape := ⟨0, ![]⟩
abbrev S600000x1 : Shape := ⟨2, ![600000, 1]⟩
abbrev S600000x8 : Shape := ⟨2, ![600000, 8]⟩
abbrev S600000x8x1 : Shape := ⟨3, ![600000, 8, 1]⟩
abbrev S20000x1 : Shape := ⟨2, ![20000, 1]⟩
abbrev S20000x8x16 : Shape := ⟨3, ![20000, 8, 16]⟩
abbrev S20000x16 : Shape := ⟨2, ![20000, 16]⟩
abbrev S20000x1x16 : Shape := ⟨3, ![20000, 1, 16]⟩

abbrev nBuf : Space → Nat
  | .hbm => 59
  | .vmem => 0
  | .smem => 0
  | _ => 0

abbrev bufTy : (tb : Table) → Fin (tcTables nBuf tb) → BufTy
  | .hbm, ⟨0, _⟩ => ⟨S100000x8x16, .f32⟩
  | .hbm, ⟨1, _⟩ => ⟨S600000x8x16, .f32⟩
  | .hbm, ⟨2, _⟩ => ⟨S600000, .i32⟩
  | .hbm, ⟨3, _⟩ => ⟨S20000, .i32⟩
  | .hbm, ⟨4, _⟩ => ⟨S_, .i32⟩
  | .hbm, ⟨5, _⟩ => ⟨S600000, .i32⟩
  | .hbm, ⟨6, _⟩ => ⟨S600000, .i1⟩
  | .hbm, ⟨7, _⟩ => ⟨S_, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000x1, .i32⟩
  | .hbm, ⟨12, _⟩ => ⟨S600000x8x16, .f32⟩
  | .hbm, ⟨13, _⟩ => ⟨S600000x8x16, .f32⟩
  | .hbm, ⟨14, _⟩ => ⟨S_, .f32⟩
  | .hbm, ⟨15, _⟩ => ⟨S600000x8, .f32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S600000, .f32⟩
  | .hbm, ⟨20, _⟩ => ⟨S600000, .f32⟩
  | .hbm, ⟨21, _⟩ => ⟨S600000x1, .f32⟩
  | .hbm, ⟨22, _⟩ => ⟨S600000x8, .f32⟩
  | .hbm, ⟨23, _⟩ => ⟨S600000x8, .f32⟩
  | .hbm, ⟨24, _⟩ => ⟨S600000x8, .f32⟩
  | .hbm, ⟨25, _⟩ => ⟨S_, .f32⟩
  | .hbm, ⟨26, _⟩ => ⟨S600000, .f32⟩
  | .hbm, ⟨27, _⟩ => ⟨S600000x1, .f32⟩
  | .hbm, ⟨28, _⟩ => ⟨S600000x8, .f32⟩
  | .hbm, ⟨29, _⟩ => ⟨S600000x8, .f32⟩
  | .hbm, ⟨30, _⟩ => ⟨S600000x8x1, .f32⟩
  | .hbm, ⟨31, _⟩ => ⟨S600000x8x16, .f32⟩
  | .hbm, ⟨32, _⟩ => ⟨S600000x8x16, .f32⟩
  | .hbm, ⟨33, _⟩ => ⟨S_, .f32⟩
  | .hbm, ⟨34, _⟩ => ⟨S100000x8x16, .f32⟩
  | .hbm, ⟨35, _⟩ => ⟨S600000x1, .i32⟩
  | .hbm, ⟨36, _⟩ => ⟨S100000x8x16, .f32⟩
  | .hbm, ⟨37, _⟩ => ⟨S_, .i32⟩
  | .hbm, ⟨38, _⟩ => ⟨S20000, .i32⟩
  | .hbm, ⟨39, _⟩ => ⟨S20000, .i1⟩
  | .hbm, ⟨40, _⟩ => ⟨S_, .i32⟩
  | .hbm, ⟨41, _⟩ => ⟨S20000, .i32⟩
  | .hbm, ⟨42, _⟩ => ⟨S20000, .i32⟩
  | .hbm, ⟨43, _⟩ => ⟨S20000, .i32⟩
  | .hbm, ⟨44, _⟩ => ⟨S20000x1, .i32⟩
  | .hbm, ⟨45, _⟩ => ⟨S20000x8x16, .f32⟩
  | .hbm, ⟨46, _⟩ => ⟨S_, .f32⟩
  | .hbm, ⟨47, _⟩ => ⟨S20000x8x16, .f32⟩
  | .hbm, ⟨48, _⟩ => ⟨S20000x8x16, .f32⟩
  | .hbm, ⟨49, _⟩ => ⟨S20000x8x16, .f32⟩
  | .hbm, ⟨50, _⟩ => ⟨S_, .f32⟩
  | .hbm, ⟨51, _⟩ => ⟨S20000x16, .f32⟩
  | .hbm, ⟨52, _⟩ => ⟨S20000x1x16, .f32⟩
  | .hbm, ⟨53, _⟩ => ⟨S20000x1x16, .f32⟩
  | .hbm, ⟨54, _⟩ => ⟨S_, .f32⟩
  | .hbm, ⟨55, _⟩ => ⟨S20000x1x16, .f32⟩
  | .hbm, ⟨56, _⟩ => ⟨S20000x1x16, .f32⟩
  | .hbm, ⟨57, _⟩ => ⟨S20000x8x16, .f32⟩
  | .hbm, ⟨58, _⟩ => ⟨S20000x8x16, .f32⟩
  | _, _ => ⟨S100000x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  reducesTo_S600000x8x16_S600000x8_d2 : S600000x8x16.ReducesTo [2] S600000x8
  h_S_ : 0 < S_.numel
  reducesTo_S600000x8_S600000_d1 : S600000x8.ReducesTo [1] S600000
  bcast_S600000x1_S600000x8_0_1 : S600000x1.BroadcastsInDim S600000x8 (![0, 1] : Fin 2 → Fin S600000x8.rank)
  bcast_S600000x8_S600000x8x1_0_1 : S600000x8.BroadcastsInDim S600000x8x1 (![0, 1] : Fin 2 → Fin S600000x8x1.rank)
  bcast_S600000x8x1_S600000x8x16_0_1_2 : S600000x8x1.BroadcastsInDim S600000x8x16 (![0, 1, 2] : Fin 3 → Fin S600000x8x16.rank)
  bcast_S_S100000x8x16 : S_.BroadcastsInDim S100000x8x16 (![] : Fin 0 → Fin S100000x8x16.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x8x16 : S_.BroadcastsInDim S20000x8x16 (![] : Fin 0 → Fin S20000x8x16.rank)
  reducesTo_S20000x8x16_S20000x16_d1 : S20000x8x16.ReducesTo [1] S20000x16
  bcast_S20000x16_S20000x1x16_0_2 : S20000x16.BroadcastsInDim S20000x1x16 (![0, 2] : Fin 2 → Fin S20000x1x16.rank)
  bcast_S_S20000x1x16 : S_.BroadcastsInDim S20000x1x16 (![] : Fin 0 → Fin S20000x1x16.rank)
  bcast_S20000x1x16_S20000x8x16_0_1_2 : S20000x1x16.BroadcastsInDim S20000x8x16 (![0, 1, 2] : Fin 3 → Fin S20000x8x16.rank)
  gather_S100000x8x16_S600000x1_S600000x8x16_12_0_n_n_0_1_1816_wf : GatherDims.WF S100000x8x16 S600000x1 S600000x8x16 [1, 2] [0] [] [0] [] 1 ![1, 8, 16]
  scatter_S100000x8x16_S600000x1_S600000x8x16_12_0_0_1_wf : ScatterDims.WF S100000x8x16 S600000x1 S600000x8x16 [1, 2] [0] [0] 1
  gather_S100000x8x16_S20000x1_S20000x8x16_12_0_n_n_0_1_1816_wf : GatherDims.WF S100000x8x16 S20000x1 S20000x8x16 [1, 2] [0] [] [0] [] 1 ![1, 8, 16]

variable [Facts₀]

def gather_S100000x8x16_S600000x1_S600000x8x16_12_0_n_n_0_1_1816 : GatherDims S100000x8x16 S600000x1 S600000x8x16 where
  offsetDims := [1, 2]
  collapsedSliceDims := [0]
  operandBatchingDims := []
  startIndicesBatchingDims := []
  startIndexMap := [0]
  indexVectorDim := 1
  sliceSizes := ![1, 8, 16]
  wf := gather_S100000x8x16_S600000x1_S600000x8x16_12_0_n_n_0_1_1816_wf
def scatter_S100000x8x16_S600000x1_S600000x8x16_12_0_0_1 : ScatterDims S100000x8x16 S600000x1 S600000x8x16 where
  updateWindowDims := [1, 2]
  insertedWindowDims := [0]
  scatterDimsToOperandDims := [0]
  indexVectorDim := 1
  wf := scatter_S100000x8x16_S600000x1_S600000x8x16_12_0_0_1_wf
def gather_S100000x8x16_S20000x1_S20000x8x16_12_0_n_n_0_1_1816 : GatherDims S100000x8x16 S20000x1 S20000x8x16 where
  offsetDims := [1, 2]
  collapsedSliceDims := [0]
  operandBatchingDims := []
  startIndicesBatchingDims := []
  startIndexMap := [0]
  indexVectorDim := 1
  sliceSizes := ![1, 8, 16]
  wf := gather_S100000x8x16_S20000x1_S20000x8x16_12_0_n_n_0_1_1816_wf

class Facts : Prop extends Facts₀ where

variable [Facts]
-- ==== Proof.Spec.lean ====
/-
  The mathematics both programs compute, one edge (or one target node) at a time, on the extended reals.

  For an edge with feature rows `a h d` and gathered node rows `g h d` (heads `h : Fin 8`, channels `d : Fin 16`):
  the logit of head `h` is `∑ d, a h d * g h d`; the attention weight of head `h` is the softmax over the eight
  heads, written with the largest logit subtracted before exponentiating, `exp (s h - peak s) / ∑ k, exp (s k - peak s)`;
  the message is `a h d` times that weight. For a target node with aggregated column `x h` (one channel, eight heads)
  the output is `(x h + ε)` divided by the larger of `sqrt (∑ k, (x k + ε)²)` and `δ`, with `ε`, `δ` the two
  single-precision literals both programs spell with the same words.
-/
import Idealize.ShloMosaic.PureOps.Ideal
import Idealize.ShloMosaic.PureOps.Ideal.Laws

noncomputable section

namespace Cert.Attn

open Idealize.ShloMosaic
open scoped BigOperators

/-- The shift added to every aggregated entry before normalising (the word both programs print). -/
abbrev shift : EReal := Ideal.ofBits .f32 0x26901D7D#32
/-- The floor under the norm (the word both programs print). -/
abbrev floor : EReal := Ideal.ofBits .f32 0x2B8CBCCC#32

/-- The word of minus infinity denotes the bottom of the extended reals. -/
theorem negInf : Ideal.ofBits .f32 0xFF800000#32 = (⊥ : EReal) := by
  simp [Ideal.ofBits, Ideal.ieee]

/-- Head `h`'s logit: the inner product over the sixteen channels. -/
def logit (a g : Fin 8 → Fin 16 → EReal) (h : Fin 8) : EReal := ∑ d : Fin 16, a h d * g h d

/-- The largest of the eight logits (the fold of `max` from the bottom element). -/
def peak (s : Fin 8 → EReal) : EReal := (Finset.univ : Finset (Fin 8)).fold max (⊥ : EReal) s

/-- The softmax over the eight heads, shifted by the peak. -/
def share (s : Fin 8 → EReal) (h : Fin 8) : EReal :=
  Ideal.div (Ideal.exp (s h - peak s)) (∑ k : Fin 8, Ideal.exp (s k - peak s))

/-- The attention weight of head `h` of one edge. -/
def weight (a g : Fin 8 → Fin 16 → EReal) (h : Fin 8) : EReal := share (logit a g) h

/-- One column (a channel's eight heads) of a target node, shifted and divided by its floored Euclidean norm. -/
def unitCol (x : Fin 8 → EReal) (h : Fin 8) : EReal :=
  Ideal.div (x h + shift) (max (Ideal.sqrt (∑ k : Fin 8, (x k + shift) * (x k + shift))) floor)

/-- Taking the maximum with the bottom element changes nothing. -/
theorem max_bot (x : EReal) : max (⊥ : EReal) x = x := max_eq_right bot_le

end Cert.Attn

end
-- ==== Proof.EdgeBody.lean ====
/-
  The edge kernel's body, read at one entry of a [1200, 8, 16] block pair at the extended reals.

  Row `r` of the block of edge features and row `r` of the block of gathered node features give eight logits
  (the lane sum over the sixteen channels of their product); the row's largest logit is subtracted, the
  exponentials are divided by their sum over the eight heads: entry (r, h) of the weights the body stores is
  the softmax weight of head `h` of that row, and entry (r, h, d) of the messages is the edge feature there times it.
-/
import proofs.«118789_j6889127542846_1_alg».proof.Proof.Gen.KernelIdeal.Skeleton
import proofs.«118789_j6889127542846_1_alg».proof.Proof.Spec
import Idealize.ShloMosaic.Lib.ValueIdx
import Idealize.ShloMosaic.Lib.Pipeline.Value
import Idealize.ShloMosaic.PureOps.Ideal.Laws

noncomputable section

namespace Cert.KernelIdeal.EdgeBody

open Cert.KernelIdeal Cert.KernelIdeal.Gen Idealize.ShloMosaic Idealize.ShloMosaic.ValueIdx Cert.Attn
open scoped BigOperators

/-- Row `r` of a block, as heads by channels. -/
abbrev rowOf (x : FVec Ideal S1200x8x16 .f32) (r : Fin 1200) : Fin 8 → Fin 16 → EReal := fun h d => x (ix3 r h d)

/-- The index the lane sum over channels reads: (r, h) with channel `d` inserted last. -/
theorem lift_chan (r : Fin 1200) (h : Fin 8) (d : Fin 16) :
    reduces_S1200x8x16_S1200x8.lift (ix2 r h) d = ix3 r h d :=
  funext fun a => Fin.ext (by match a with | ⟨0, _⟩ => rfl | ⟨1, _⟩ => rfl | ⟨2, _⟩ => rfl)

/-- The index a reduction over heads reads: row `r` with head `k` inserted last. -/
theorem lift_head (r : Fin 1200) (k : Fin 8) :
    reduces_S1200x8_S1200.lift (ix1 r) k = ix2 r k :=
  funext fun a => Fin.ext (by match a with | ⟨0, _⟩ => rfl | ⟨1, _⟩ => rfl)

/-- Entry (r, h) of the lane sum of the product of the two blocks is row `r`'s logit of head `h`. -/
theorem logits_apply (v0 v1 : FVec Ideal S1200x8x16 .f32) (r : Fin 1200) (h : Fin 8) :
    multiReduction .add [2] S1200x8 (mulf v0 (shapeCast S1200x8x16 v1 shapeCasts_S1200x8x16_S1200x8x16)) 0x00000000#32
        reduces_S1200x8x16_S1200x8 (.inl rfl) rfl (ix2 r h)
      = logit (rowOf v0 r) (rowOf v1 r) h := by
  refine (Ideal.multiReduction_add_single _ 0x00000000#32 reduces_S1200x8x16_S1200x8 (.inl rfl) rfl (ix2 r h)).trans ?_
  unfold logit
  refine Finset.sum_congr rfl fun d _ => ?_
  rw [shapeCast_self]
  exact congrArg (fun i => v0 i * v1 i) (lift_chan r h d)

/-- Entry `r` of the maximum over heads is the row's peak. -/
theorem peak_apply (s : FVec Ideal S1200x8 .f32) (r : Fin 1200) :
    multiReduction .maximumf [1] S1200 s 0xFF800000#32 reduces_S1200x8_S1200 (.inl rfl) rfl (ix1 r)
      = peak (fun h => s (ix2 r h)) := by
  refine (Ideal.multiReduction_maximumf_single s 0xFF800000#32 reduces_S1200x8_S1200 (.inl rfl) rfl (ix1 r)).trans ?_
  unfold peak
  rw [Ideal.ofBits_def, negInf]
  refine congrArg (fun f => Finset.fold max (⊥ : EReal) f Finset.univ) (funext fun k => ?_)
  exact congrArg s (lift_head r k)

/-- Entry `r` of the sum over heads. -/
theorem total_apply (e : FVec Ideal S1200x8 .f32) (r : Fin 1200) :
    multiReduction .add [1] S1200 e 0x00000000#32 reduces_S1200x8_S1200 (.inl rfl) rfl (ix1 r)
      = ∑ k : Fin 8, e (ix2 r k) := by
  refine (Ideal.multiReduction_add_single e 0x00000000#32 reduces_S1200x8_S1200 (.inl rfl) rfl (ix1 r)).trans ?_
  exact Finset.sum_congr rfl fun k _ => congrArg e (lift_head r k)

/-- A per-row value kept as a [1200, 1] column and spread over the eight heads reads, at (r, h), the row's value. -/
theorem column_apply (v : FVec Ideal S1200 .f32) (r : Fin 1200) (h : Fin 8) :
    broadcastTo S1200x8 (shapeCast S1200x1 v shapeCasts_S1200_S1200x1) broadcasts_S1200x1_S1200x8 (ix2 r h) = v (ix1 r) := by
  refine (broadcastTo_apply _ broadcasts_S1200x1_S1200x8 (ix2 r h) (ix2 r (0 : Fin 1)) (fun a => ?_)).trans ?_
  · match a with
    | ⟨0, _⟩ => show r.val = if (1200 : Nat) = 1 then 0 else r.val; rw [if_neg (by decide)]
    | ⟨1, _⟩ => show 0 = if (1 : Nat) = 1 then 0 else h.val; rw [if_pos rfl]
  · refine shapeCast_apply v shapeCasts_S1200_S1200x1 (ix2 r (0 : Fin 1)) (ix1 r) ?_
    rw [Shape.rowMajor_val_one, Shape.rowMajor_val_two]
    show r.val = r.val * 1 + 0
    omega

/-- A per-(row, head) value kept as [1200, 8, 1] and spread over the sixteen channels reads, at (r, h, d), its (r, h) value. -/
theorem spread_apply (w : FVec Ideal S1200x8 .f32) (r : Fin 1200) (h : Fin 8) (d : Fin 16) :
    broadcastTo S1200x8x16 (shapeCast S1200x8x1 w shapeCasts_S1200x8_S1200x8x1) broadcasts_S1200x8x1_S1200x8x16 (ix3 r h d) = w (ix2 r h) := by
  refine (broadcastTo_apply _ broadcasts_S1200x8x1_S1200x8x16 (ix3 r h d) (ix3 r h (0 : Fin 1)) (fun a => ?_)).trans ?_
  · match a with
    | ⟨0, _⟩ => show r.val = if (1200 : Nat) = 1 then 0 else r.val; rw [if_neg (by decide)]
    | ⟨1, _⟩ => show h.val = if (8 : Nat) = 1 then 0 else h.val; rw [if_neg (by decide)]
    | ⟨2, _⟩ => show 0 = if (1 : Nat) = 1 then 0 else d.val; rw [if_pos rfl]
  · refine shapeCast_apply w shapeCasts_S1200x8_S1200x8x1 (ix3 r h (0 : Fin 1)) (ix2 r h) ?_
    rw [Shape.rowMajor_val_two, Shape.rowMajor_val_three]
    show r.val * 8 + h.val = (r.val * 8 + h.val) * 1 + 0
    omega

/-- THE WEIGHTS the body stores: entry (r, h) is the softmax weight of head `h` of row `r`. -/
theorem weights_apply (v0 v1 : FVec Ideal S1200x8x16 .f32) (r : Fin 1200) (h : Fin 8) :
    k0_pay1 (F := Ideal) v0 v1 (ix2 r h) = weight (rowOf v0 r) (rowOf v1 r) h := by
  unfold k0_pay1
  dsimp only
  rw [divf_apply]
  unfold weight share
  have hs : ∀ k : Fin 8, multiReduction .add [2] S1200x8 (mulf v0 (shapeCast S1200x8x16 v1 shapeCasts_S1200x8x16_S1200x8x16)) 0x00000000#32
      reduces_S1200x8x16_S1200x8 (.inl rfl) rfl (ix2 r k) = logit (rowOf v0 r) (rowOf v1 r) k := fun k => logits_apply v0 v1 r k
  have he : ∀ k : Fin 8, exp (subf (multiReduction .add [2] S1200x8 (mulf v0 (shapeCast S1200x8x16 v1 shapeCasts_S1200x8x16_S1200x8x16)) 0x00000000#32
        reduces_S1200x8x16_S1200x8 (.inl rfl) rfl)
      (broadcastTo S1200x8 (shapeCast S1200x1 (multiReduction .maximumf [1] S1200 (multiReduction .add [2] S1200x8 (mulf v0 (shapeCast S1200x8x16 v1 shapeCasts_S1200x8x16_S1200x8x16)) 0x00000000#32
        reduces_S1200x8x16_S1200x8 (.inl rfl) rfl) 0xFF800000#32 reduces_S1200x8_S1200 (.inl rfl) rfl) shapeCasts_S1200_S1200x1) broadcasts_S1200x1_S1200x8)) (ix2 r k)
      = Ideal.exp (logit (rowOf v0 r) (rowOf v1 r) k - peak (logit (rowOf v0 r) (rowOf v1 r))) := fun k => by
    show Ideal.exp (_ - _) = _
    rw [column_apply, peak_apply, hs k]
    refine congrArg (fun p => Ideal.exp (_ - peak p)) (funext fun k' => hs k')
  refine congrArg₂ Ideal.div (he h) ?_
  rw [column_apply, total_apply]
  exact Finset.sum_congr rfl fun k _ => he k

/-- THE MESSAGES the body stores: entry (r, h, d) is the edge feature there times the weight of head `h` of row `r`. -/
theorem messages_apply (v0 v1 : FVec Ideal S1200x8x16 .f32) (r : Fin 1200) (h : Fin 8) (d : Fin 16) :
    k0_pay2 (F := Ideal) v0 v1 (ix3 r h d) = v0 (ix3 r h d) * weight (rowOf v0 r) (rowOf v1 r) h := by
  unfold k0_pay2
  rw [mulf_apply, spread_apply, weights_apply]

end Cert.KernelIdeal.EdgeBody

end
-- ==== Proof.EdgeArrays.lean ====
/-
  The edge region's two result arrays, as whole-array functions of the arrays the region finds on entry.

  Point `t` of the 500-point grid works on rows `1200 t … 1200 t + 1199` of the edge features and of the gathered node
  features, and writes the same rows of the messages and of the weights. Since the body treats every row by itself, what
  point `t` writes back is the block of ONE whole-array function: row `e` of the weights is the softmax over heads of row
  `e`'s logits, row `e` of the messages the edge features times those weights. The 500 blocks tile the arrays, so the
  arrays end at those functions.
-/
import proofs.«118789_j6889127542846_1_alg».proof.Proof.Gen.KernelIdeal.Frame
import proofs.«118789_j6889127542846_1_alg».proof.Proof.EdgeBody

set_option maxRecDepth 16384

noncomputable section

namespace Cert.KernelIdeal.EdgeArrays

open Cert.KernelIdeal Cert.KernelIdeal.Gen Cert.KernelIdeal.EdgeBody Cert.Attn
open Idealize.ShloMosaic Idealize.ShloMosaic.TcCoe Idealize.ShloMosaic.ValueIdx Idealize.SL.Sem
open Idealize.ShloMosaic.Pipeline (Dat)

/-- Row `e` of an [E, 8, 16] array, as heads by channels. -/
abbrev edgeRow (x : FVec Ideal S600000x8x16 .f32) (e : Fin 600000) : Fin 8 → Fin 16 → EReal := fun h d => x (ix3 e h d)

/-- The attention weights of every edge: entry (e, h) is the softmax weight of head `h` of edge `e`. -/
def weightsArr (a g : FVec Ideal S600000x8x16 .f32) : FVec Ideal S600000x8 .f32 :=
  fun j => weight (edgeRow a (j 0)) (edgeRow g (j 0)) (j 1)

/-- The messages of every edge: the edge feature times its head's weight. -/
def messagesArr (a g : FVec Ideal S600000x8x16 .f32) : FVec Ideal S600000x8x16 .f32 :=
  fun i => a i * weight (edgeRow a (i 0)) (edgeRow g (i 0)) (i 1)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: every window's block index is (t, 0, …). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem lt_N (t : Fin cfg0.N) : t.val < 500 := lt_of_lt_of_eq t.isLt (show cfg0.N = 500 from N_0)

section
variable (V : (c : Dev nD) → (b : Ref sig .tc) → Buf (Elt Ideal) ((c : Thread nD τ).loc b))

/-- Row `r` of the edge-feature block at point `t` is row `1200 t + r` of the array. -/
theorem eft_block (c : Dev nD) (t : Fin cfg0.N) (r : Fin 1200) (h : Fin 8) (d : Fin 16) :
    (iblk0 V c 0 t : Vec Ideal S1200x8x16 .f32) (ix3 r h d)
      = (V c main_arg1 : S600000x8x16.Idx → EReal) (ix3 ⟨1200 * t.val + r.val, by have := lt_N t; omega⟩ h d) := by
  obtain ⟨e0, e1, e2, -⟩ := idx_facts t
  unfold iblk0
  rw [View.read_apply]
  show V c main_arg1 _ = V c main_arg1 _
  congr 1
  funext a
  apply Fin.ext
  match a with
  | ⟨0, _⟩ => show win0_0.index t (0 : Fin 3) * 1200 + 1 * r.val = 1200 * t.val + r.val; rw [e0]; omega
  | ⟨1, _⟩ => show win0_0.index t (1 : Fin 3) * 8 + 1 * h.val = h.val; rw [e1]; omega
  | ⟨2, _⟩ => show win0_0.index t (2 : Fin 3) * 16 + 1 * d.val = d.val; rw [e2]; omega

/-- Row `r` of the gathered-feature block at point `t` is row `1200 t + r` of the array. -/
theorem gat_block (c : Dev nD) (t : Fin cfg0.N) (r : Fin 1200) (h : Fin 8) (d : Fin 16) :
    (iblk0 V c 1 t : Vec Ideal S1200x8x16 .f32) (ix3 r h d)
      = (V c main_v6 : S600000x8x16.Idx → EReal) (ix3 ⟨1200 * t.val + r.val, by have := lt_N t; omega⟩ h d) := by
  obtain ⟨-, -, -, e0, e1, e2, -⟩ := idx_facts t
  unfold iblk0
  rw [View.read_apply]
  show V c main_v6 _ = V c main_v6 _
  congr 1
  funext a
  apply Fin.ext
  match a with
  | ⟨0, _⟩ => show win0_1.index t (0 : Fin 3) * 1200 + 1 * r.val = 1200 * t.val + r.val; rw [e0]; omega
  | ⟨1, _⟩ => show win0_1.index t (1 : Fin 3) * 8 + 1 * h.val = h.val; rw [e1]; omega
  | ⟨2, _⟩ => show win0_1.index t (2 : Fin 3) * 16 + 1 * d.val = d.val; rw [e2]; omega

/-- The rows of the two input blocks at point `t` are rows of the arrays. -/
theorem rows_block (c : Dev nD) (t : Fin cfg0.N) (r : Fin 1200) :
    rowOf (iblk0 V c 0 t) r = edgeRow (V c main_arg1) ⟨1200 * t.val + r.val, by have := lt_N t; omega⟩
    ∧ rowOf (iblk0 V c 1 t) r = edgeRow (V c main_v6) ⟨1200 * t.val + r.val, by have := lt_N t; omega⟩ :=
  ⟨funext fun h => funext fun d => eft_block V c t r h d, funext fun h => funext fun d => gat_block V c t r h d⟩

/-- Where entry (r, h, d) of the message block at point `t` lands in the array. -/
theorem msg_emb (t : Fin cfg0.N) (r : Fin 1200) (h : Fin 8) (d : Fin 16) :
    ((cfg0.win 2).blk t).view.emb (ix3 r h d) = (ix3 ⟨1200 * t.val + r.val, by have := lt_N t; omega⟩ h d : S600000x8x16.Idx) := by
  obtain ⟨-, -, -, -, -, -, e0, e1, e2, -⟩ := idx_facts t
  funext a
  apply Fin.ext
  match a with
  | ⟨0, _⟩ => show win0_2.index t (0 : Fin 3) * 1200 + 1 * r.val = 1200 * t.val + r.val; rw [e0]; omega
  | ⟨1, _⟩ => show win0_2.index t (1 : Fin 3) * 8 + 1 * h.val = h.val; rw [e1]; omega
  | ⟨2, _⟩ => show win0_2.index t (2 : Fin 3) * 16 + 1 * d.val = d.val; rw [e2]; omega

/-- Where entry (r, h) of the weight block at point `t` lands in the array. -/
theorem wgt_emb (t : Fin cfg0.N) (r : Fin 1200) (h : Fin 8) :
    ((cfg0.win 3).blk t).view.emb (ix2 r h) = (ix2 ⟨1200 * t.val + r.val, by have := lt_N t; omega⟩ h : S600000x8.Idx) := by
  obtain ⟨-, -, -, -, -, -, -, -, -, e0, e1⟩ := idx_facts t
  funext a
  apply Fin.ext
  match a with
  | ⟨0, _⟩ => show win0_3.index t (0 : Fin 2) * 1200 + 1 * r.val = 1200 * t.val + r.val; rw [e0]; omega
  | ⟨1, _⟩ => show win0_3.index t (1 : Fin 2) * 8 + 1 * h.val = h.val; rw [e1]; omega

/-- WHAT POINT `t` WRITES BACK to the messages is block `t` of `messagesArr` of the entry arrays. -/
theorem flushed_msg (c : Dev nD) (t : Fin cfg0.N) :
    (dat0 V c).flushed 2 t = ((cfg0.win 2).blk t).view.read (Elt Ideal) (messagesArr (V c main_arg1) (V c main_v6)) := by
  show (cfg0.win 2).cut (grid0.coords t) ((dat0 V c).after 2 t) = _
  rw [after0_2]
  unfold out0_2
  rw [View.canon_unit_zero hz3]
  simp only [View.ld_unit_zero (S := S1200x8x16) hz3]
  refine funext fun (j : S1200x8x16.Idx) => ?_
  obtain ⟨r, h, d, rfl⟩ : ∃ (r : Fin 1200) (h : Fin 8) (d : Fin 16), j = ix3 r h d := ⟨j 0, j 1, j 2, eq_ix3 j⟩
  rw [View.read_apply, msg_emb]
  obtain ⟨e0, e1⟩ := rows_block V c t r
  show k0_pay2 (F := Ideal) (iblk0 V c 0 t) (iblk0 V c 1 t) (ix3 r h d) = _
  refine (messages_apply (iblk0 V c 0 t) (iblk0 V c 1 t) r h d).trans ?_
  rw [e0, e1, eft_block]
  rfl

/-- WHAT POINT `t` WRITES BACK to the weights is block `t` of `weightsArr` of the entry arrays. -/
theorem flushed_wgt (c : Dev nD) (t : Fin cfg0.N) :
    (dat0 V c).flushed 3 t = ((cfg0.win 3).blk t).view.read (Elt Ideal) (weightsArr (V c main_arg1) (V c main_v6)) := by
  show (cfg0.win 3).cut (grid0.coords t) ((dat0 V c).after 3 t) = _
  rw [after0_3]
  unfold out0_3
  rw [View.canon_unit_zero hz2]
  simp only [View.ld_unit_zero (S := S1200x8x16) hz3]
  refine funext fun (j : S1200x8.Idx) => ?_
  obtain ⟨r, h, rfl⟩ : ∃ (r : Fin 1200) (h : Fin 8), j = ix2 r h := ⟨j 0, j 1, eq_ix2 j⟩
  rw [View.read_apply, wgt_emb]
  obtain ⟨e0, e1⟩ := rows_block V c t r
  show k0_pay1 (F := Ideal) (iblk0 V c 0 t) (iblk0 V c 1 t) (ix2 r h) = _
  refine (weights_apply (iblk0 V c 0 t) (iblk0 V c 1 t) r h).trans ?_
  rw [e0, e1]
  rfl

/-- Every entry of the messages is in the block of the point its row falls in. -/
theorem cover_msg (i : S600000x8x16.Idx) : ∃ t : Fin cfg0.N, (cfg0.win 2).flush t = true ∧ i ∈ ((cfg0.win 2).blk t).view.set := by
  have hi0 : (i 0).val < 600000 := (i 0).isLt
  have hi1 : (i 1).val < 8 := (i 1).isLt
  have hi2 : (i 2).val < 16 := (i 2).isLt
  let t : Fin cfg0.N := ⟨(i 0).val / 1200, by rw [show cfg0.N = 500 from N_0]; omega⟩
  obtain ⟨-, -, -, -, -, -, e0, e1, e2, -⟩ := idx_facts t
  have ht : t.val = (i 0).val / 1200 := rfl
  refine ⟨t, flush0_2 t, ?_⟩
  show i ∈ ((View.whole main_v7_0).slice (win0_2.rect t)).set
  rw [View.set_slice_whole, Rect.mem_set_unit]
  intro a
  match a with
  | ⟨0, _⟩ => show win0_2.index t (0 : Fin 3) * 1200 ≤ (i 0).val ∧ (i 0).val < win0_2.index t (0 : Fin 3) * 1200 + 1200; rw [e0, ht]; omega
  | ⟨1, _⟩ => show win0_2.index t (1 : Fin 3) * 8 ≤ (i 1).val ∧ (i 1).val < win0_2.index t (1 : Fin 3) * 8 + 8; rw [e1]; omega
  | ⟨2, _⟩ => show win0_2.index t (2 : Fin 3) * 16 ≤ (i 2).val ∧ (i 2).val < win0_2.index t (2 : Fin 3) * 16 + 16; rw [e2]; omega

/-- Every entry of the weights is in the block of the point its row falls in. -/
theorem cover_wgt (i : S600000x8.Idx) : ∃ t : Fin cfg0.N, (cfg0.win 3).flush t = true ∧ i ∈ ((cfg0.win 3).blk t).view.set := by
  have hi0 : (i 0).val < 600000 := (i 0).isLt
  have hi1 : (i 1).val < 8 := (i 1).isLt
  let t : Fin cfg0.N := ⟨(i 0).val / 1200, by rw [show cfg0.N = 500 from N_0]; omega⟩
  obtain ⟨-, -, -, -, -, -, -, -, -, e0, e1⟩ := idx_facts t
  have ht : t.val = (i 0).val / 1200 := rfl
  refine ⟨t, flush0_3 t, ?_⟩
  show i ∈ ((View.whole main_v7_1).slice (win0_3.rect t)).set
  rw [View.set_slice_whole, Rect.mem_set_unit]
  intro a
  match a with
  | ⟨0, _⟩ => show win0_3.index t (0 : Fin 2) * 1200 ≤ (i 0).val ∧ (i 0).val < win0_3.index t (0 : Fin 2) * 1200 + 1200; rw [e0, ht]; omega
  | ⟨1, _⟩ => show win0_3.index t (1 : Fin 2) * 8 ≤ (i 1).val ∧ (i 1).val < win0_3.index t (1 : Fin 2) * 8 + 8; rw [e1]; omega

/-- THE MESSAGES after the region: `messagesArr` of the edge features and the gathered features as the region found them. -/
theorem final_msg (c : Dev nD) : (dat0 V c).arrAt 2 cfg0.N = messagesArr (V c main_arg1) (V c main_v6) :=
  (dat0 V c).arrAt_eq_of_cover 2 (messagesArr (V c main_arg1) (V c main_v6)) (fun t _ => flushed_msg V c t) cover_msg

/-- THE WEIGHTS after the region: `weightsArr` of the same two arrays. -/
theorem final_wgt (c : Dev nD) : (dat0 V c).arrAt 3 cfg0.N = weightsArr (V c main_arg1) (V c main_v6) :=
  (dat0 V c).arrAt_eq_of_cover 3 (weightsArr (V c main_arg1) (V c main_v6)) (fun t _ => flushed_wgt V c t) cover_wgt

end

end Cert.KernelIdeal.EdgeArrays

end
-- ==== Proof.NormBody.lean ====
/-
  The normalisation kernel's body, read at one entry of a [2000, 8, 16] block at the extended reals.

  Every entry is shifted by `ε`; for a row `r` and channel `d` the eight shifted entries over the heads are squared
  and summed, the square root is floored at `δ`, and entry (r, h, d) is the shifted entry divided by that: the column
  (r, ·, d) is normalised to unit Euclidean length over the heads axis.
-/
import proofs.«118789_j6889127542846_1_alg».proof.Proof.Gen.KernelIdeal.Skeleton
import proofs.«118789_j6889127542846_1_alg».proof.Proof.Spec
import Idealize.ShloMosaic.Lib.ValueIdx
import Idealize.ShloMosaic.Lib.Pipeline.Value
import Idealize.ShloMosaic.PureOps.Ideal.Laws

noncomputable section

namespace Cert.KernelIdeal.NormBody

open Cert.KernelIdeal Cert.KernelIdeal.Gen Idealize.ShloMosaic Idealize.ShloMosaic.ValueIdx Cert.Attn
open scoped BigOperators

/-- The index the sum over heads reads: (r, d) with head `k` inserted in the middle. -/
theorem lift_head (r : Fin 2000) (d : Fin 16) (k : Fin 8) :
    reduces_S2000x8x16_S2000x16.lift (ix2 r d) k = ix3 r k d :=
  funext fun a => Fin.ext (by match a with | ⟨0, _⟩ => rfl | ⟨1, _⟩ => rfl | ⟨2, _⟩ => rfl)

/-- Entry (r, d) of the sum over the heads axis. -/
theorem sum_heads_apply (y : FVec Ideal S2000x8x16 .f32) (r : Fin 2000) (d : Fin 16) :
    multiReduction .add [1] S2000x16 y 0x00000000#32 reduces_S2000x8x16_S2000x16 (.inl rfl) rfl (ix2 r d)
      = ∑ k : Fin 8, y (ix3 r k d) := by
  refine (Ideal.multiReduction_add_single y 0x00000000#32 reduces_S2000x8x16_S2000x16 (.inl rfl) rfl (ix2 r d)).trans ?_
  exact Finset.sum_congr rfl fun k _ => congrArg y (lift_head r d k)

/-- A per-(row, channel) value kept with a unit heads axis reads, at (r, 0, d), its (r, d) value. -/
theorem keep_apply (v : FVec Ideal S2000x16 .f32) (r : Fin 2000) (d : Fin 16) :
    shapeCast S2000x1x16 v shapeCasts_S2000x16_S2000x1x16 (ix3 r (0 : Fin 1) d) = v (ix2 r d) := by
  refine shapeCast_apply v shapeCasts_S2000x16_S2000x1x16 (ix3 r (0 : Fin 1) d) (ix2 r d) ?_
  rw [Shape.rowMajor_val_two, Shape.rowMajor_val_three]
  show r.val * 16 + d.val = (r.val * 1 + 0) * 16 + d.val
  omega

/-- A value with a unit heads axis spread over the eight heads reads, at (r, h, d), its (r, 0, d) value. -/
theorem down_apply (v : FVec Ideal S2000x1x16 .f32) (r : Fin 2000) (h : Fin 8) (d : Fin 16) :
    broadcastTo S2000x8x16 v broadcasts_S2000x1x16_S2000x8x16 (ix3 r h d) = v (ix3 r (0 : Fin 1) d) := by
  refine broadcastTo_apply v broadcasts_S2000x1x16_S2000x8x16 (ix3 r h d) (ix3 r (0 : Fin 1) d) (fun a => ?_)
  match a with
  | ⟨0, _⟩ => show r.val = if (2000 : Nat) = 1 then 0 else r.val; rw [if_neg (by decide)]
  | ⟨1, _⟩ => show 0 = if (1 : Nat) = 1 then 0 else h.val; rw [if_pos rfl]
  | ⟨2, _⟩ => show d.val = if (16 : Nat) = 1 then 0 else d.val; rw [if_neg (by decide)]

/-- THE BLOCK the body stores: entry (r, h, d) is head `h` of the normalised column (r, ·, d). -/
theorem unit_apply (v0 : FVec Ideal S2000x8x16 .f32) (r : Fin 2000) (h : Fin 8) (d : Fin 16) :
    k1_pay1 (F := Ideal) v0 (ix3 r h d) = unitCol (fun k => v0 (ix3 r k d)) h := by
  unfold k1_pay1
  dsimp only
  rw [shapeCast_self]
  rw [divf_apply, down_apply]
  unfold unitCol
  refine congrArg₂ Ideal.div rfl ?_
  show max (Ideal.sqrt (shapeCast S2000x1x16 _ shapeCasts_S2000x16_S2000x1x16 (ix3 r (0 : Fin 1) d))) floor = _
  rw [keep_apply, sum_heads_apply]
  rfl

end Cert.KernelIdeal.NormBody

end
-- ==== Proof.NormArrays.lean ====
/-
  The normalisation region's result array, as a whole-array function of the array the region finds on entry.

  Point `t` of the 10-point grid works on rows `2000 t … 2000 t + 1999` of the gathered aggregate and writes the same rows
  of the output; the body treats every (row, channel) column by itself, so what point `t` writes back is the block of ONE
  whole-array function: every column (n, ·, d) shifted and divided by its floored Euclidean norm over the heads. The ten
  blocks tile the array.
-/
import proofs.«118789_j6889127542846_1_alg».proof.Proof.Gen.KernelIdeal.Frame
import proofs.«118789_j6889127542846_1_alg».proof.Proof.NormBody

set_option maxRecDepth 16384

noncomputable section

namespace Cert.KernelIdeal.NormArrays

open Cert.KernelIdeal Cert.KernelIdeal.Gen Cert.KernelIdeal.NormBody Cert.Attn
open Idealize.ShloMosaic Idealize.ShloMosaic.TcCoe Idealize.ShloMosaic.ValueIdx Idealize.SL.Sem
open Idealize.ShloMosaic.Pipeline (Dat)

/-- Every column over the heads of a [T, 8, 16] array normalised: entry (n, h, d) is head `h` of the unit column (n, ·, d). -/
def unitArr (x : FVec Ideal S20000x8x16 .f32) : FVec Ideal S20000x8x16 .f32 :=
  fun i => unitCol (fun k => x (ix3 (i 0) k (i 2))) (i 1)

theorem hz3 : (![0, 0, 0] : Fin 3 → Nat) = fun _ => 0 := funext fun a => by fin_cases a <;> rfl

/-- The printed index maps over the grid: both windows' block index is (t, 0, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

theorem lt_N (t : Fin cfg1.N) : t.val < 10 := lt_of_lt_of_eq t.isLt (show cfg1.N = 10 from N_1)

section
variable (V : (c : Dev nD) → (b : Ref sig .tc) → Buf (Elt Ideal) ((c : Thread nD τ).loc b))

/-- Row `r` of the input block at point `t` is row `2000 t + r` of the array. -/
theorem in_block (c : Dev nD) (t : Fin cfg1.N) (r : Fin 2000) (h : Fin 8) (d : Fin 16) :
    (iblk1 V c 0 t : Vec Ideal S2000x8x16 .f32) (ix3 r h d)
      = (V c main_v17 : S20000x8x16.Idx → EReal) (ix3 ⟨2000 * t.val + r.val, by have := lt_N t; omega⟩ h d) := by
  obtain ⟨e0, e1, e2, -⟩ := idx_facts t
  unfold iblk1
  rw [View.read_apply]
  show V c main_v17 _ = V c main_v17 _
  congr 1
  funext a
  apply Fin.ext
  match a with
  | ⟨0, _⟩ => show win1_0.index t (0 : Fin 3) * 2000 + 1 * r.val = 2000 * t.val + r.val; rw [e0]; omega
  | ⟨1, _⟩ => show win1_0.index t (1 : Fin 3) * 8 + 1 * h.val = h.val; rw [e1]; omega
  | ⟨2, _⟩ => show win1_0.index t (2 : Fin 3) * 16 + 1 * d.val = d.val; rw [e2]; omega

/-- Where entry (r, h, d) of the output block at point `t` lands in the array. -/
theorem out_emb (t : Fin cfg1.N) (r : Fin 2000) (h : Fin 8) (d : Fin 16) :
    ((cfg1.win 1).blk t).view.emb (ix3 r h d) = (ix3 ⟨2000 * t.val + r.val, by have := lt_N t; omega⟩ h d : S20000x8x16.Idx) := by
  obtain ⟨-, -, -, e0, e1, e2⟩ := idx_facts t
  funext a
  apply Fin.ext
  match a with
  | ⟨0, _⟩ => show win1_1.index t (0 : Fin 3) * 2000 + 1 * r.val = 2000 * t.val + r.val; rw [e0]; omega
  | ⟨1, _⟩ => show win1_1.index t (1 : Fin 3) * 8 + 1 * h.val = h.val; rw [e1]; omega
  | ⟨2, _⟩ => show win1_1.index t (2 : Fin 3) * 16 + 1 * d.val = d.val; rw [e2]; omega

/-- WHAT POINT `t` WRITES BACK is block `t` of `unitArr` of the entry array. -/
theorem flushed_out (c : Dev nD) (t : Fin cfg1.N) :
    (dat1 V c).flushed 1 t = ((cfg1.win 1).blk t).view.read (Elt Ideal) (unitArr (V c main_v17)) := by
  show (cfg1.win 1).cut (grid1.coords t) ((dat1 V c).after 1 t) = _
  rw [after1_1]
  unfold out1_1
  rw [View.canon_unit_zero hz3]
  simp only [View.ld_unit_zero (S := S2000x8x16) hz3]
  refine funext fun (j : S2000x8x16.Idx) => ?_
  obtain ⟨r, h, d, rfl⟩ : ∃ (r : Fin 2000) (h : Fin 8) (d : Fin 16), j = ix3 r h d := ⟨j 0, j 1, j 2, eq_ix3 j⟩
  rw [View.read_apply, out_emb]
  show k1_pay1 (F := Ideal) (iblk1 V c 0 t) (ix3 r h d) = _
  refine (unit_apply (iblk1 V c 0 t) r h d).trans ?_
  have e : (fun k => (iblk1 V c 0 t : Vec Ideal S2000x8x16 .f32) (ix3 r k d))
      = fun k => (V c main_v17 : S20000x8x16.Idx → EReal) (ix3 ⟨2000 * t.val + r.val, by have := lt_N t; omega⟩ k d) :=
    funext fun k => in_block V c t r k d
  rw [e]
  rfl

/-- Every entry of the output is in the block of the point its row falls in. -/
theorem cover_out (i : S20000x8x16.Idx) : ∃ t : Fin cfg1.N, (cfg1.win 1).flush t = true ∧ i ∈ ((cfg1.win 1).blk t).view.set := by
  have hi0 : (i 0).val < 20000 := (i 0).isLt
  have hi1 : (i 1).val < 8 := (i 1).isLt
  have hi2 : (i 2).val < 16 := (i 2).isLt
  let t : Fin cfg1.N := ⟨(i 0).val / 2000, by rw [show cfg1.N = 10 from N_1]; omega⟩
  obtain ⟨-, -, -, e0, e1, e2⟩ := idx_facts t
  have ht : t.val = (i 0).val / 2000 := rfl
  refine ⟨t, flush1_1 t, ?_⟩
  show i ∈ ((View.whole main_v18).slice (win1_1.rect t)).set
  rw [View.set_slice_whole, Rect.mem_set_unit]
  intro a
  match a with
  | ⟨0, _⟩ => show win1_1.index t (0 : Fin 3) * 2000 ≤ (i 0).val ∧ (i 0).val < win1_1.index t (0 : Fin 3) * 2000 + 2000; rw [e0, ht]; omega
  | ⟨1, _⟩ => show win1_1.index t (1 : Fin 3) * 8 ≤ (i 1).val ∧ (i 1).val < win1_1.index t (1 : Fin 3) * 8 + 8; rw [e1]; omega
  | ⟨2, _⟩ => show win1_1.index t (2 : Fin 3) * 16 ≤ (i 2).val ∧ (i 2).val < win1_1.index t (2 : Fin 3) * 16 + 16; rw [e2]; omega

/-- THE OUTPUT after the region: `unitArr` of the gathered aggregate as the region found it. -/
theorem final_out (c : Dev nD) : (dat1 V c).arrAt 1 cfg1.N = unitArr (V c main_v17) :=
  (dat1 V c).arrAt_eq_of_cover 1 (unitArr (V c main_v17)) (fun t _ => flushed_out V c t) cover_out

end

end Cert.KernelIdeal.NormArrays

end
-- ==== Proof.KernelValue.lean ====
/-
  The idealized kernel program's two results as functions of its four arguments.

  Reading the contents of the last segment boundary back through the program: the second result is the weights array spread
  to a trailing unit axis; the first is the normalised gather, by the target indices, of the scatter-sum, by the raw edge
  indices, of the messages, which the edge region computed from the edge features and the gather of the node features by the
  wrapped edge indices. The two gathers, the scatter-sum and the index arithmetic are carried as named functions and never
  opened: the reference applies the same ones.
-/
import proofs.«118789_j6889127542846_1_alg».proof.Proof.Gen.KernelIdeal.Frame
import proofs.«118789_j6889127542846_1_alg».proof.Proof.EdgeArrays
import proofs.«118789_j6889127542846_1_alg».proof.Proof.NormArrays
import Idealize.ShloMosaic.Lib.StableHlo.Run

set_option maxRecDepth 16384

noncomputable section

namespace Cert.KernelIdeal.Whole

open Cert.KernelIdeal Cert.KernelIdeal.Gen Cert.KernelIdeal.EdgeArrays Cert.KernelIdeal.NormArrays
open Idealize.ShloMosaic Idealize.ShloMosaic.TcCoe Idealize.SL.Sem Idealize.ShloMosaic.StableHlo

/-- The edge indices as a column, a negative one wrapped by the number of nodes. -/
def edgeIdx (dst : IVec S600000 32) : IVec S600000x1 32 :=
  broadcastInDim S600000x1 ![0] bcast_S600000_S600000x1_0
    (select (cmpi .slt dst (broadcastInDim S600000 ![] bcast_S_S600000 (constantI S_ 32 0#32)))
      (addi dst (broadcastInDim S600000 ![] bcast_S_S600000 (constantI S_ 32 100000#32))) dst)

/-- The target indices as a column, a negative one wrapped by the number of nodes. -/
def targetIdx (tix : IVec S20000 32) : IVec S20000x1 32 :=
  broadcastInDim S20000x1 ![0] bcast_S20000_S20000x1_0
    (select (cmpi .slt tix (broadcastInDim S20000 ![] bcast_S_S20000 (constantI S_ 32 0#32)))
      (addi tix (broadcastInDim S20000 ![] bcast_S_S20000 (constantI S_ 32 100000#32))) tix)

/-- The node rows at the edges' ends. -/
def gathered (node : FVec Ideal S100000x8x16 .f32) (dst : IVec S600000 32) : FVec Ideal S600000x8x16 .f32 :=
  Host.gather gather_S100000x8x16_S600000x1_S600000x8x16_12_0_n_n_0_1_1816 node (edgeIdx dst)

/-- The messages summed into their end nodes, from zero. -/
def aggregated (msg : FVec Ideal S600000x8x16 .f32) (dst : IVec S600000 32) : FVec Ideal S100000x8x16 .f32 :=
  Host.scatterAdd scatter_S100000x8x16_S600000x1_S600000x8x16_12_0_0_1
    (broadcastInDim S100000x8x16 ![] bcast_S_S100000x8x16 (constant (F := Ideal) S_ .f32 0x00000000#32))
    (broadcastInDim S600000x1 ![0] bcast_S600000_S600000x1_0 dst) msg

/-- The aggregate's rows at the target nodes. -/
def picked (nft : FVec Ideal S100000x8x16 .f32) (tix : IVec S20000 32) : FVec Ideal S20000x8x16 .f32 :=
  Host.gather gather_S100000x8x16_S20000x1_S20000x8x16_12_0_n_n_0_1_1816 nft (targetIdx tix)

/-- The first result: the normalised aggregate at the target nodes. -/
def outNorm (node : FVec Ideal S100000x8x16 .f32) (eft : FVec Ideal S600000x8x16 .f32) (dst : IVec S600000 32) (tix : IVec S20000 32) :
    FVec Ideal S20000x8x16 .f32 :=
  unitArr (picked (aggregated (messagesArr eft (gathered node dst)) dst) tix)

/-- The second result: the attention weights with a trailing unit axis. -/
def outWeights (node : FVec Ideal S100000x8x16 .f32) (eft : FVec Ideal S600000x8x16 .f32) (dst : IVec S600000 32) :
    FVec Ideal S600000x8x1 .f32 :=
  broadcastInDim S600000x8x1 ![0, 1] bcast_S600000x8_S600000x8x1_0_1 (weightsArr eft (gathered node dst))

variable (m : (ℓ : Loc nD τ sig) → Buf (Elt Ideal) ℓ) (ρ : Dev nD → PrngReg)

/-- No operation of a stretch writes the buffer: decided operation by operation. -/
macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- Region 0 is entered with the edge features as launched. -/
theorem V1_arg1 (c : Dev nD) : V1 m ρ c main_arg1 = m ((c : Thread nD τ).loc main_arg1) :=
  (StableHlo.after_of_forall_not_mem (b := Proc.devRef .tc main_arg1) _ _ (by not_written hostOps0)).trans rfl

/-- Region 0 is entered with the node rows gathered at the wrapped edge indices. -/
theorem V1_v6 (c : Dev nD) : V1 m ρ c main_v6 = gathered (m ((c : Thread nD τ).loc main_arg0)) (m ((c : Thread nD τ).loc main_arg2)) := by
  show StableHlo.after hostOps0 (W0 m ρ c) (Proc.devRef .tc main_v6) = _
  after_results
  rfl

/-- At region 0's exit an argument buffer holds its launch contents. -/
theorem W2_arg2 (c : Dev nD) : W2 m ρ c (Proc.devRef .tc main_arg2) = m ((c : Thread nD τ).loc main_arg2) :=
  (W2_of_ne m ρ c main_arg2 (by decide)).trans
    ((StableHlo.after_of_forall_not_mem (b := Proc.devRef .tc main_arg2) _ _ (by not_written hostOps0)).trans rfl)
theorem W2_arg3 (c : Dev nD) : W2 m ρ c (Proc.devRef .tc main_arg3) = m ((c : Thread nD τ).loc main_arg3) :=
  (W2_of_ne m ρ c main_arg3 (by decide)).trans
    ((StableHlo.after_of_forall_not_mem (b := Proc.devRef .tc main_arg3) _ _ (by not_written hostOps0)).trans rfl)

/-- At region 0's exit the messages and the weights are the whole-array functions of the arguments. -/
theorem W2_msg (c : Dev nD) : W2 m ρ c (Proc.devRef .tc main_v7_0)
    = messagesArr (m ((c : Thread nD τ).loc main_arg1)) (gathered (m ((c : Thread nD τ).loc main_arg0)) (m ((c : Thread nD τ).loc main_arg2))) := by
  refine (W2_arr m ρ c 2).trans ((final_msg (V1 m ρ) c).trans ?_)
  rw [V1_arg1, V1_v6]
theorem W2_wgt (c : Dev nD) : W2 m ρ c (Proc.devRef .tc main_v7_1)
    = weightsArr (m ((c : Thread nD τ).loc main_arg1)) (gathered (m ((c : Thread nD τ).loc main_arg0)) (m ((c : Thread nD τ).loc main_arg2))) := by
  refine (W2_arr m ρ c 3).trans ((final_wgt (V1 m ρ) c).trans ?_)
  rw [V1_arg1, V1_v6]

/-- Region 1 is entered with the aggregate of the messages gathered at the target indices. -/
theorem V3_v17 (c : Dev nD) : V3 m ρ c main_v17
    = picked (aggregated (messagesArr (m ((c : Thread nD τ).loc main_arg1)) (gathered (m ((c : Thread nD τ).loc main_arg0)) (m ((c : Thread nD τ).loc main_arg2))))
        (m ((c : Thread nD τ).loc main_arg2))) (m ((c : Thread nD τ).loc main_arg3)) := by
  show StableHlo.after hostOps1 (W2 m ρ c) (Proc.devRef .tc main_v17) = _
  after_results
  rw [W2_arg2, W2_arg3, W2_msg]
  rfl

/-- THE FIRST RESULT at the last boundary. -/
theorem W5_norm (c : Dev nD) : W5 m ρ c (Proc.devRef .tc main_v18)
    = outNorm (m ((c : Thread nD τ).loc main_arg0)) (m ((c : Thread nD τ).loc main_arg1)) (m ((c : Thread nD τ).loc main_arg2)) (m ((c : Thread nD τ).loc main_arg3)) := by
  refine (StableHlo.after_of_forall_not_mem (b := Proc.devRef .tc main_v18) _ _ (by not_written hostOps2)).trans ?_
  refine (W4_arr m ρ c 1).trans ((final_out (V3 m ρ) c).trans ?_)
  rw [V3_v17]
  rfl

/-- THE SECOND RESULT at the last boundary. -/
theorem W5_weights (c : Dev nD) : W5 m ρ c (Proc.devRef .tc main_v19)
    = outWeights (m ((c : Thread nD τ).loc main_arg0)) (m ((c : Thread nD τ).loc main_arg1)) (m ((c : Thread nD τ).loc main_arg2)) := by
  show StableHlo.after hostOps2 (W4 m ρ c) (Proc.devRef .tc main_v19) = _
  after_results
  have e : W4 m ρ c (Proc.devRef .tc main_v7_1) = W2 m ρ c (Proc.devRef .tc main_v7_1) :=
    (W4_of_ne m ρ c main_v7_1 (by decide)).trans
      (StableHlo.after_of_forall_not_mem (b := Proc.devRef .tc main_v7_1) _ _ (by not_written hostOps1))
  rw [e, W2_wgt]
  rfl

end Cert.KernelIdeal.Whole

end
-- ==== Proof.RefStages.lean ====
/-
  The reference's three float stretches, each read index by index, are the same whole-array functions the kernel's regions
  compute: the reference's softmax over heads of the per-edge logits is `weightsArr`, its product with the edge features is
  `messagesArr`, and its shift-and-normalise over heads is `unitArr`. The reference takes the maximum of the row's peak with
  minus infinity once more; on the extended reals that changes nothing. Its sums start from the word of zero.
-/
import proofs.«118789_j6889127542846_1_alg».proof.Proof.Gen.ReferenceIdeal.Read
import proofs.«118789_j6889127542846_1_alg».proof.Proof.EdgeArrays
import proofs.«118789_j6889127542846_1_alg».proof.Proof.NormArrays
import Idealize.ShloMosaic.PureOps.Reduce

set_option maxRecDepth 16384

noncomputable section

namespace Cert.ReferenceIdeal.Stages

open Cert.ReferenceIdeal Cert.ReferenceIdeal.Gen Cert.ReferenceIdeal.Read Cert.Attn
open Cert.KernelIdeal.EdgeArrays (weightsArr messagesArr edgeRow)
open Cert.KernelIdeal.NormArrays (unitArr)
open Idealize.ShloMosaic Idealize.ShloMosaic.ValueIdx
open scoped BigOperators

variable (x0 : FVec Ideal S100000x8x16 .f32) (x1 : FVec Ideal S600000x8x16 .f32) (x2 : IVec S600000 32) (x3 : IVec S20000 32)

theorem zero_word : (FloatOps.ofBits (F := Ideal) .f32 0x00000000#32 : EReal) = 0 := Ideal.ofBits_zero_f32

/-- The per-edge logits. -/
theorem logits_apply (e : Fin 600000) (h : Fin 8) :
    val_main_v8 (F := Ideal) x0 x1 x2 (ix2 e h) = logit (edgeRow x1 e) (edgeRow (val_main_v6 (F := Ideal) x0 x2) e) h := by
  rw [val_main_v8_apply, val_main_cst_apply, zero_word, zero_add]
  unfold logit
  refine Finset.sum_congr rfl fun d _ => ?_
  rw [val_main_v7_apply]
  have e' : idx_main_v8 (ix2 e h) d = ix3 e h d := funext fun a => Fin.ext (by match a with | ⟨0, _⟩ => rfl | ⟨1, _⟩ => rfl | ⟨2, _⟩ => rfl)
  rw [e']
  rfl

/-- The host's maximum over heads of any [E, 8] array, from minus infinity, is the row's peak. -/
theorem host_peak (s : FVec Ideal S600000x8 .f32) (e : Fin 600000) :
    Host.reduce FloatOps.maximumf s (val_main_cst_1 (F := Ideal)) reducesTo_S600000x8_S600000_d1 h_S_ (ix1 e)
      = peak (fun h => s (ix2 e h)) := by
  refine (Host.reduce_eq_fold_single FloatOps.maximumf s (val_main_cst_1 (F := Ideal)) reducesTo_S600000x8_S600000_d1
    (by decide : S600000x8.Reduces [1] S600000) h_S_ (ix1 e)).trans ?_
  unfold peak
  show Finset.fold max (Ideal.ofBits .f32 0xFF800000#32) _ Finset.univ = _
  rw [negInf]
  refine congrArg (fun f => Finset.fold max (⊥ : EReal) f Finset.univ) (funext fun k => ?_)
  exact congrArg s (funext fun a => Fin.ext (by match a with | ⟨0, _⟩ => rfl | ⟨1, _⟩ => rfl))

/-- The row's peak: the host's maximum over heads, once more against minus infinity. -/
theorem peak_apply (e : Fin 600000) :
    val_main_v11 (F := Ideal) x0 x1 x2 (ix1 e) = peak (fun h => val_main_v8 (F := Ideal) x0 x1 x2 (ix2 e h)) := by
  rw [val_main_v11_apply, val_main_v10_apply, val_main_cst_2_apply]
  unfold val_main_v9
  rw [host_peak]
  show max (Ideal.ofBits .f32 0xFF800000#32) _ = _
  rw [negInf, max_bot]

/-- The shifted exponentials. -/
theorem exps_apply (e : Fin 600000) (h : Fin 8) :
    val_main_v15 (F := Ideal) x0 x1 x2 (ix2 e h)
      = Ideal.exp (val_main_v8 (F := Ideal) x0 x1 x2 (ix2 e h) - val_main_v11 (F := Ideal) x0 x1 x2 (ix1 e)) := by
  rw [val_main_v15_apply, val_main_v14_apply, val_main_v13_apply, val_main_v12_apply]
  have e' : idx_main_v12 (idx_main_v13 (ix2 e h)) = ix1 e := funext fun a => Fin.ext (by match a with | ⟨0, _⟩ => rfl)
  rw [e', Ideal.hostUnary_exp_def, Ideal.subf_def]

/-- The sum of the exponentials over the heads, spread back over them. -/
theorem total_apply (e : Fin 600000) (h : Fin 8) :
    val_main_v18 (F := Ideal) x0 x1 x2 (ix2 e h) = ∑ k : Fin 8, val_main_v15 (F := Ideal) x0 x1 x2 (ix2 e k) := by
  rw [val_main_v18_apply, val_main_v17_apply, val_main_v16_apply, val_main_cst_3_apply, zero_word, zero_add]
  refine Finset.sum_congr rfl fun k _ => ?_
  exact congrArg (val_main_v15 (F := Ideal) x0 x1 x2) (funext fun a => Fin.ext (by match a with | ⟨0, _⟩ => rfl | ⟨1, _⟩ => rfl))

/-- THE WEIGHTS stage is `weightsArr` of the edge features and the gathered node rows. -/
theorem weights_eq : val_main_v19 (F := Ideal) x0 x1 x2 = weightsArr x1 (val_main_v6 (F := Ideal) x0 x2) := by
  funext j
  obtain ⟨e, h, rfl⟩ : ∃ (e : Fin 600000) (h : Fin 8), j = ix2 e h := ⟨j 0, j 1, eq_ix2 j⟩
  rw [val_main_v19_apply, total_apply]
  simp only [exps_apply, peak_apply, logits_apply]
  rfl

/-- THE MESSAGES stage is `messagesArr` of the same two arrays. -/
theorem messages_eq : val_main_v22 (F := Ideal) x0 x1 x2 = messagesArr x1 (val_main_v6 (F := Ideal) x0 x2) := by
  funext i
  obtain ⟨e, h, d, rfl⟩ : ∃ (e : Fin 600000) (h : Fin 8) (d : Fin 16), i = ix3 e h d := ⟨i 0, i 1, i 2, eq_ix3 i⟩
  rw [val_main_v22_apply, val_main_v21_apply, val_main_v20_apply]
  have e' : idx_main_v20 (idx_main_v21 (ix3 e h d)) = ix2 e h := funext fun a => Fin.ext (by match a with | ⟨0, _⟩ => rfl | ⟨1, _⟩ => rfl)
  rw [e', weights_eq]
  rfl

/-- THE OUTPUT stage is `unitArr` of the aggregate's rows at the target nodes. -/
theorem output_eq : val_main_v42 (F := Ideal) x0 x1 x2 x3 = unitArr (val_main_v32 (F := Ideal) x0 x1 x2 x3) := by
  funext i
  obtain ⟨n, h, d, rfl⟩ : ∃ (n : Fin 20000) (h : Fin 8) (d : Fin 16), i = ix3 n h d := ⟨i 0, i 1, i 2, eq_ix3 i⟩
  rw [val_main_v42_apply, val_main_v41_apply, val_main_v40_apply, val_main_v39_apply, val_main_cst_9_apply, val_main_v38_apply,
    val_main_v37_apply, val_main_v36_apply, val_main_cst_8_apply, zero_word, zero_add]
  have hs : ∀ j, val_main_v34 (F := Ideal) x0 x1 x2 x3 j = val_main_v32 (F := Ideal) x0 x1 x2 x3 j + shift := fun j => by
    rw [val_main_v34_apply, val_main_v33_apply, val_main_cst_7_apply]; rfl
  have hk : ∀ k : Fin 8, idx_main_v36 (idx_main_v37 (idx_main_v41 (ix3 n h d))) k = ix3 n k d := fun k =>
    funext fun a => Fin.ext (by match a with | ⟨0, _⟩ => rfl | ⟨1, _⟩ => rfl | ⟨2, _⟩ => rfl)
  simp only [val_main_v35_apply, hs, hk, Ideal.hostDivf_def, Ideal.maximumf_def, Ideal.hostUnary_sqrt_def, Ideal.mulf_def, Ideal.ofBits_def]
  unfold unitArr unitCol
  rfl

end Cert.ReferenceIdeal.Stages

end
-- ==== Proof.Bridge.lean ====
/-
  The reference's two results are the idealized kernel program's two result functions of the same four arguments.

  Both programs wrap the edge and target indices the same way, gather the node rows with the same gather, sum the messages
  into the nodes with the same scatter-sum from zero, and gather the aggregate with the same gather; between those shared
  operations the reference's float stretches are the whole-array functions the kernel's regions compute. So the composed
  stages agree, the shared operations never opened.
-/
import proofs.«118789_j6889127542846_1_alg».proof.Proof.RefStages
import proofs.«118789_j6889127542846_1_alg».proof.Proof.KernelValue

set_option maxRecDepth 16384

noncomputable section

namespace Cert.Bridge

open Cert.ReferenceIdeal.Read Cert.ReferenceIdeal.Stages Cert.KernelIdeal.Whole
open Cert.KernelIdeal.EdgeArrays (weightsArr messagesArr)
open Cert.KernelIdeal.NormArrays (unitArr)
open Idealize.ShloMosaic

variable (x0 : FVec Ideal Cert.KernelIdeal.S100000x8x16 .f32) (x1 : FVec Ideal Cert.KernelIdeal.S600000x8x16 .f32)
  (x2 : IVec Cert.KernelIdeal.S600000 32) (x3 : IVec Cert.KernelIdeal.S20000 32)

/-- The reference gathers the node rows at the same wrapped edge indices with the same gather. -/
theorem gathered_eq : val_main_v6 (F := Ideal) x0 x2 = gathered x0 x2 := by
  unfold val_main_v6 val_main_v5 val_main_v4 val_main_v3 val_main_v2 val_main_v1 val_main_v0 val_main_c_0 val_main_c gathered edgeIdx
  rfl

/-- The reference's first result is the kernel program's. -/
theorem norm_eq : val_main_v42 (F := Ideal) x0 x1 x2 x3 = outNorm x0 x1 x2 x3 := by
  rw [output_eq]
  unfold outNorm
  refine congrArg unitArr ?_
  unfold val_main_v32 val_main_v25
  rw [messages_eq, gathered_eq]
  unfold val_main_v31 val_main_v30 val_main_v29 val_main_v28 val_main_v27 val_main_v26 val_main_c_6 val_main_c_5 val_main_v24 val_main_v23 val_main_cst_4
    picked aggregated targetIdx
  rfl

/-- The reference's second result is the kernel program's. -/
theorem weights_eq : val_main_v20 (F := Ideal) x0 x1 x2 = outWeights x0 x1 x2 := by
  unfold val_main_v20
  rw [Cert.ReferenceIdeal.Stages.weights_eq, gathered_eq]
  unfold outWeights
  rfl

end Cert.Bridge

end
-- ==== Proof.lean ====
/-
  The certificate of the edge-attention message passing kernel against its jnp reference, over the extended reals.

  Both programs compute, for every edge, the softmax over the eight heads of the per-head inner products of the edge
  features with the node features gathered at the edge's end, multiply the edge features by those weights, sum the messages
  into their end nodes, gather the aggregate at the target nodes, shift it and normalise every column over the heads to unit
  Euclidean length (floored). The kernel program does the two float stretches in two pipelined regions, 1200 edges and 2000
  target nodes at a time; since each works row by row, the blocks it writes back are the blocks of whole-array functions, and
  those are the functions the reference's host operations compute index by index. The gathers, the scatter-sum and the
  index arithmetic are the same operations in both programs. No law beyond `max ⊥ x = x` and `0 + x = x` joins the two
  sides, so the precondition is not used. The frames are the generated ones; the ideal pass rewrote nothing.
-/
import proofs.«118789_j6889127542846_1_alg».proof.Defs
import proofs.«118789_j6889127542846_1_alg».proof.Proof.Gen.Kernel
import proofs.«118789_j6889127542846_1_alg».proof.Proof.Gen.Kernel.Frame
import proofs.«118789_j6889127542846_1_alg».proof.Proof.Gen.KernelIdeal
import proofs.«118789_j6889127542846_1_alg».proof.Proof.Gen.KernelIdeal.Frame
import proofs.«118789_j6889127542846_1_alg».proof.Proof.Gen.ReferenceIdeal
import proofs.«118789_j6889127542846_1_alg».proof.Proof.Gen.ReferenceIdeal.Run
import proofs.«118789_j6889127542846_1_alg».proof.Proof.Gen.ReferenceIdeal.Read
import proofs.«118789_j6889127542846_1_alg».proof.Proof.Gen.Pre_finite_inputs
import proofs.«118789_j6889127542846_1_alg».proof.Proof.KernelRun
import proofs.«118789_j6889127542846_1_alg».proof.Proof.KernelValue
import proofs.«118789_j6889127542846_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with the two results at `outNorm` and `outWeights` of the arguments. -/
theorem algebraic : Cert.algebraic_KernelIdeal_ReferenceIdeal := by
  intro m ρ m' ρ' _ hagree
  refine ⟨fun c => Cert.KernelIdeal.Whole.outNorm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.KernelIdeal.Whole.outWeights (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.W5_norm m ρ c), (h c).2.1.trans (Cert.KernelIdeal.Whole.W5_weights m ρ c), (h c).2.2⟩)
      (Cert.KernelIdeal.Named.run (F := Ideal) m ρ)
  · refine (θ_run Cert.ReferenceIdeal.defs _ _).mono (fun r h c => ?_) (Cert.ReferenceIdeal.Value.run (F := Ideal) m' ρ')
    obtain ⟨h0, h1, hargs⟩ := h c
    obtain ⟨a0, a1, a2, a3⟩ := hagree c
    refine ⟨h0.trans ?_, h1.trans ?_, hargs⟩
    · rw [Cert.ReferenceIdeal.Read.val_main_v42_eq, a0, a1, a2, a3]
      exact Cert.Bridge.norm_eq _ _ _ _
    · rw [a0, a1, a2]
      exact (Cert.ReferenceIdeal.Read.val_main_v20_eq _ _ _).trans (Cert.Bridge.weights_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
